-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S16x100 : S_.BroadcastsInDim S16x100 (![] : Fin 0 → Fin S16x100.rank)
  reducesTo_S16x100_S_d0_1 : S16x100.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16x100 .f32) (main_arg6 : FVec F S16 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S16x100 .f32 := Host.absf main_arg5
  let main_cst_6 : FVec F S_ .f32 := constant S_ .f32 0x7F800000#32
  let main_v20 : FVec F S16x100 .f32 := broadcastInDim S16x100 ![] bcast_S_S16x100 main_cst_6
  let main_v21 : IVec S16x100 1 := cmpf .olt main_v19 main_v20
  let main_c_7 : IVec S_ 1 := constantI S_ 1 1#1
  let main_v22 : IVec S_ 1 := (fun x v => Host.reduce IntOp.andi x v reducesTo_S16x100_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x100 .f32) (main_arg1 : IVec S2x800000 32) (main_arg2 : FVec F S100x100 .f32) (main_arg3 : FVec F S100 .f32) (main_arg4 : FVec F S100x100 .f32) (main_arg5 : FVec F S16x100 .f32) (main_arg6 : FVec F S16 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S100x100 .f32 := Host.absf main_arg2
  let main_cst_0 : FVec F S_ .f32 := constant S_ .f32 0x7F800000#32
  let main_v5 : FVec F S100x100 .f32 := broadcastInDim S100x100 ![] bcast_S_S100x100 main_cst_0
  let main_v6 : IVec S100x100 1 := cmpf .olt main_v4 main_v5
  let main_c_1 : IVec S_ 1 := constantI S_ 1 1#1
  let main_v7 : IVec S_ 1 := (fun x v => Host.reduce IntOp.andi x v reducesTo_S100x100_S_d0_1 h_S_) main_v6 main_c_1
  let main_v8 : IVec S_ 1 := andi main_v3 main_v7
  let main_v9 : FVec F S100 .f32 := Host.absf main_arg3
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg5 main_arg6 main_v13 main_v16
-- ==== Kernel.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S100000 : Shape := ⟨1, ![100000]⟩
abbrev S100000x1 : Shape := ⟨2, ![100000, 1]⟩
abbrev S100x16 : Shape := ⟨2, ![100, 16]⟩
abbrev S1x100 : Shape := ⟨2, ![1, 100]⟩
abbrev S1x16 : Shape := ⟨2, ![1, 16]⟩
abbrev S100000x16 : Shape := ⟨2, ![100000, 16]⟩
abbrev S2000x100 : Shape := ⟨2, ![2000, 100]⟩
abbrev S2000x16 : Shape := ⟨2, ![2000, 16]⟩

abbrev nBuf : Space → Nat
  | .hbm => 42
  | .vmem => 11
  | .smem => 0
  | _ => 0

abbrev bufTy : (tb : Table) → Fin (tcTables nBuf tb) → BufTy
  | .hbm, ⟨0, _⟩ => ⟨S100000x100, .f32⟩
  | .hbm, ⟨1, _⟩ => ⟨S2x800000, .i32⟩
  | .hbm, ⟨2, _⟩ => ⟨S100x100, .f32⟩
  | .hbm, ⟨3, _⟩ => ⟨S100, .f32⟩
  | .hbm, ⟨4, _⟩ => ⟨S100x100, .f32⟩
  | .hbm, ⟨5, _⟩ => ⟨S16x100, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x100, .f32⟩
  | .hbm, ⟨20, _⟩ => ⟨S_, .f32⟩
  | .hbm, ⟨21, _⟩ => ⟨S100000x100, .f32⟩
  | .hbm, ⟨22, _⟩ => ⟨S800000x1, .i32⟩
  | .hbm, ⟨23, _⟩ => ⟨S100000x100, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x100, .f32⟩
  | .hbm, ⟨35, _⟩ => ⟨S100000x100, .f32⟩
  | .hbm, ⟨36, _⟩ => ⟨S100x100, .f32⟩
  | .hbm, ⟨37, _⟩ => ⟨S100x100, .f32⟩
  | .hbm, ⟨38, _⟩ => ⟨S100x16, .f32⟩
  | .hbm, ⟨39, _⟩ => ⟨S1x100, .f32⟩
  | .hbm, ⟨40, _⟩ => ⟨S1x16, .f32⟩
  | .hbm, ⟨41, _⟩ => ⟨S100000x16, .f32⟩
  | .local _ .vmem, ⟨0, _⟩ => ⟨S2000x100, .f32⟩
  | .local _ .vmem, ⟨1, _⟩ => ⟨S2000x100, .f32⟩
  | .local _ .vmem, ⟨2, _⟩ => ⟨S2000x100, .f32⟩
  | .local _ .vmem, ⟨3, _⟩ => ⟨S2000x100, .f32⟩
  | .local _ .vmem, ⟨4, _⟩ => ⟨S100x100, .f32⟩
  | .local _ .vmem, ⟨5, _⟩ => ⟨S100x100, .f32⟩
  | .local _ .vmem, ⟨6, _⟩ => ⟨S100x16, .f32⟩
  | .local _ .vmem, ⟨7, _⟩ => ⟨S1x100, .f32⟩
  | .local _ .vmem, ⟨8, _⟩ => ⟨S1x16, .f32⟩
  | .local _ .vmem, ⟨9, _⟩ => ⟨S2000x16, .f32⟩
  | .local _ .vmem, ⟨10, _⟩ => ⟨S2000x16, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  transposes_S100x100_S100x100_1_0 : S100x100.Transposes [1, 0] S100x100
  transposes_S16x100_S100x16_1_0 : S16x100.Transposes [1, 0] S100x16
  shapeCasts_S100_S1x100 : S100.ShapeCasts S1x100
  shapeCasts_S16_S1x16 : S16.ShapeCasts S1x16
  inb_S2000x100_S2000x100_0_0 : ∀ a, (![0, 0] : Fin 2 → Nat) a + S2000x100.size a ≤ S2000x100.size a
  h_S2000x100 : 0 < S2000x100.numel
  shapeCasts_S2000x100_S2000x100 : S2000x100.ShapeCasts S2000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  shapeCasts_S100x100_S100x100 : S100x100.ShapeCasts S100x100
  inb_S100x16_S100x16_0_0 : ∀ a, (![0, 0] : Fin 2 → Nat) a + S100x16.size a ≤ S100x16.size a
  h_S100x16 : 0 < S100x16.numel
  shapeCasts_S100x16_S100x16 : S100x16.ShapeCasts S100x16
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x100_S2000x100 : S1x100.Broadcasts S2000x100
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  scatter_S100000_S800000x1_S800000_n_0_0_1_wf : ScatterDims.WF S100000 S800000x1 S800000 [] [0] [0] 1
  dot_S2000x100_S100x100_S2000x100_1_0_0_1_n_n_wf : DotDims.WF S2000x100 S100x100 S2000x100 [1] [0] [0] [1] [] []
  dot_S2000x100_S100x16_S2000x16_1_0_0_1_n_n_wf : DotDims.WF S2000x100 S100x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x100.size a ≤ S100000x100.size a
  hwx0_0 : ∀ i : grid0.Coords, EltTy.bits .f32 = 32 ∨ (Rect.block (s := S100000x100) S2000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x100.size a ≤ S100000x100.size a
  hwx0_1 : ∀ i : grid0.Coords, EltTy.bits .f32 = 32 ∨ (Rect.block (s := S100000x100) S2000x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100x100.size a ≤ S100x100.size a
  hwx0_2 : ∀ i : grid0.Coords, EltTy.bits .f32 = 32 ∨ (Rect.block (s := S100x100) S100x100.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x16.size a ≤ S100x16.size a
  hwx0_4 : ∀ i : grid0.Coords, EltTy.bits .f32 = 32 ∨ (Rect.block (s := S100x16) S100x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x16.size a ≤ S100000x16.size a
  hwx0_7 : ∀ i : grid0.Coords, EltTy.bits .f32 = 32 ∨ (Rect.block (s := S100000x16) S2000x16.size (cc0_transform_7 i) (hinb0_7 i)).WholeWords (EltTy.packing .f32)

variable [Facts₀]

def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x100_S100x100_S2000x100_1_0_0_1_n_n : DotDims S2000x100 S100x100 S2000x100 where
  lhsContracting := [1]
  rhsContracting := [0]
  lhsNonContracting := [0]
  rhsNonContracting := [1]
  lhsBatch := []
  rhsBatch := []
  wf := dot_S2000x100_S100x100_S2000x100_1_0_0_1_n_n_wf
def dot_S2000x100_S100x16_S2000x16_1_0_0_1_n_n : DotDims S2000x100 S100x16 S2000x16 where
  lhsContracting := [1]
  rhsContracting := [0]
  lhsNonContracting := [0]
  rhsNonContracting := [1]
  lhsBatch := []
  rhsBatch := []
  wf := dot_S2000x100_S100x16_S2000x16_1_0_0_1_n_n_wf

abbrev win0_0 : Pipeline.Window sig grid0 :=
  Pipeline.Window.ofSpec (Memref.whole main_v22) S2000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S100x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S100x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x100 : Shape := ⟨2, ![100000, 100]⟩
abbrev S2x800000 : Shape := ⟨2, ![2, 800000]⟩
abbrev S100x100 : Shape := ⟨2, ![100, 100]⟩
abbrev S100 : Shape := ⟨1, ![100]⟩
abbrev S16x100 : Shape := ⟨2, ![16, 100]⟩
abbrev S16 : Shape := ⟨1, ![16]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x100 : Shape := ⟨2, ![800000, 100]⟩
abbrev S100000 : Shape := ⟨1, ![100000]⟩
abbrev S100000x1 : Shape := ⟨2, ![100000, 1]⟩
abbrev S1x100 : Shape := ⟨2, ![1, 100]⟩
abbrev S100x16 : Shape := ⟨2, ![100, 16]⟩
abbrev S100000x16 : Shape := ⟨2, ![100000, 16]⟩
abbrev S1x16 : Shape := ⟨2, ![1, 16]⟩

abbrev nBuf : Space → Nat
  | .hbm => 52
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x800000, .i32⟩
  | .hbm, ⟨2, _⟩ => ⟨S100x100, .f32⟩
  | .hbm, ⟨3, _⟩ => ⟨S100, .f32⟩
  | .hbm, ⟨4, _⟩ => ⟨S100x100, .f32⟩
  | .hbm, ⟨5, _⟩ => ⟨S16x100, .f32⟩
  | .hbm, ⟨6, _⟩ => ⟨S16, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x100, .f32⟩
  | .hbm, ⟨20, _⟩ => ⟨S_, .f32⟩
  | .hbm, ⟨21, _⟩ => ⟨S100000x100, .f32⟩
  | .hbm, ⟨22, _⟩ => ⟨S800000x1, .i32⟩
  | .hbm, ⟨23, _⟩ => ⟨S100000x100, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S100000, .f32⟩
  | .hbm, ⟨28, _⟩ => ⟨S800000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x100, .f32⟩
  | .hbm, ⟨35, _⟩ => ⟨S100000x100, .f32⟩
  | .hbm, ⟨36, _⟩ => ⟨S100x100, .f32⟩
  | .hbm, ⟨37, _⟩ => ⟨S100000x100, .f32⟩
  | .hbm, ⟨38, _⟩ => ⟨S1x100, .f32⟩
  | .hbm, ⟨39, _⟩ => ⟨S100000x100, .f32⟩
  | .hbm, ⟨40, _⟩ => ⟨S100000x100, .f32⟩
  | .hbm, ⟨41, _⟩ => ⟨S100x100, .f32⟩
  | .hbm, ⟨42, _⟩ => ⟨S100000x100, .f32⟩
  | .hbm, ⟨43, _⟩ => ⟨S100000x100, .f32⟩
  | .hbm, ⟨44, _⟩ => ⟨S_, .f32⟩
  | .hbm, ⟨45, _⟩ => ⟨S100000x100, .f32⟩
  | .hbm, ⟨46, _⟩ => ⟨S100000x100, .f32⟩
  | .hbm, ⟨47, _⟩ => ⟨S100x16, .f32⟩
  | .hbm, ⟨48, _⟩ => ⟨S100000x16, .f32⟩
  | .hbm, ⟨49, _⟩ => ⟨S1x16, .f32⟩
  | .hbm, ⟨50, _⟩ => ⟨S100000x16, .f32⟩
  | .hbm, ⟨51, _⟩ => ⟨S100000x16, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_cst : Ref sig .tc := ⟨.hbm, 44, rfl⟩
abbrev main_call0_v0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x100 : S_.BroadcastsInDim S100000x100 (![] : Fin 0 → Fin S100000x100.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  transposes_S100x100_S100x100_1_0 : S100x100.Transposes [1, 0] S100x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S16x100_S100x16_1_0 : S16x100.Transposes [1, 0] S100x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  scatter_S100000_S800000x1_S800000_n_0_0_1_wf : ScatterDims.WF S100000 S800000x1 S800000 [] [0] [0] 1
  dot_S100000x100_S100x100_S100000x100_1_0_0_1_n_n_wf : DotDims.WF S100000x100 S100x100 S100000x100 [1] [0] [0] [1] [] []
  dot_S100000x100_S100x16_S100000x16_1_0_0_1_n_n_wf : DotDims.WF S100000x100 S100x16 S100000x16 [1] [0] [0] [1] [] []

variable [Facts₀]

def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def dot_S100000x100_S100x16_S100000x16_1_0_0_1_n_n : DotDims S100000x100 S100x16 S100000x16 where
  lhsContracting := [1]
  rhsContracting := [0]
  lhsNonContracting := [0]
  rhsNonContracting := [1]
  lhsBatch := []
  rhsBatch := []
  wf := dot_S100000x100_S100x16_S100000x16_1_0_0_1_n_n_wf

class Facts : Prop extends Facts₀ where

variable [Facts]
-- ==== Proof.DenseRow.lean ====
/-
  One node's dense tail of the SAGE layer, as a function of that node's two feature rows.

  For a node with aggregated-neighbour row `a` and own row `x` (both of length 100), weight matrices `wl`, `wr`
  (100 × 100, already laid out contraction-axis first), classifier `wc` (100 × 16) and biases `bl`, `bc`:

      hidden k = (∑ l, a l · wl l k) + (∑ l, x l · wr l k) + bl k
      logit  q = (∑ k, max (hidden k) 0 · wc k q) + bc q

  over the extended reals. Every output element of either program is `logit` of one node's rows, so the whole
  comparison is made row by row. The only algebra the two programs differ by is where the bias joins the two
  products' sum, and addition on the extended reals is commutative and associative at the infinities too.
-/
import Idealize.ShloMosaic.PureOps.Ideal

noncomputable section

open scoped BigOperators

namespace Cert.SageDense

/-- The hidden unit `k` before the rectifier: the neighbour term, the self term, the bias. -/
def hidden (a x : Fin 100 → EReal) (wl wr : Fin 100 → Fin 100 → EReal) (bl : Fin 100 → EReal) (k : Fin 100) : EReal :=
  (∑ l : Fin 100, a l * wl l k) + (∑ l : Fin 100, x l * wr l k) + bl k

/-- Class `q`'s score: the rectified hidden units against the classifier's column, plus its bias. -/
def logit (a x : Fin 100 → EReal) (wl wr : Fin 100 → Fin 100 → EReal) (wc : Fin 100 → Fin 16 → EReal)
    (bl : Fin 100 → EReal) (bc : Fin 16 → EReal) (q : Fin 16) : EReal :=
  (∑ k : Fin 100, max (hidden a x wl wr bl k) 0 * wc k q) + bc q

/-- Adding the bias to the neighbour term before the self term joins gives the same hidden unit. -/
theorem hidden_bias_first (a x : Fin 100 → EReal) (wl wr : Fin 100 → Fin 100 → EReal) (bl : Fin 100 → EReal) (k : Fin 100) :
    (∑ l : Fin 100, a l * wl l k) + bl k + (∑ l : Fin 100, x l * wr l k) = hidden a x wl wr bl k :=
  add_right_comm _ _ _

end Cert.SageDense

end
-- ==== Proof.KernelBlock.lean ====
/-
  The kernel body's stored value at one element of its [2000, 16] block.

  The body loads a block of aggregated rows and a block of own rows (2000 × 100 each), the three weight matrices
  whole and the two biases as one-row arrays, and stores
      matmul (max (matmul rows_a wl + matmul rows_x wr + bl) 0) wc + bc.
  Read at row `p`, class `q`, with every narrowing of the float format the identity on the extended reals and a
  product into the zero accumulator the plain sum over the contraction index, that is `SageDense.logit` of row `p`
  of the two blocks.
-/
import proofs.«108285_j89232240541722_1_alg».proof.Proof.Gen.KernelIdeal.Skeleton
import proofs.«108285_j89232240541722_1_alg».proof.Proof.DenseRow
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The two contractions' operand indices, axis by axis -/

theorem lhs_hid_0 (i : S2000x100.Idx) (q : dot_S2000x100_S100x100_S2000x100_1_0_0_1_n_n.contr.Idx) :
    (dot_S2000x100_S100x100_S2000x100_1_0_0_1_n_n.lhsIdx i q 0).val = (i 0).val := by
  unfold DotDims.lhsIdx
  rw [dif_neg (show ¬(0 : Fin S2000x100.rank) ∈ dot_S2000x100_S100x100_S2000x100_1_0_0_1_n_n.lhsBatch by decide), dif_pos (show (0 : Fin S2000x100.rank) ∈ dot_S2000x100_S100x100_S2000x100_1_0_0_1_n_n.lhsNonContracting by decide)]
  rfl
theorem lhs_hid_1 (i : S2000x100.Idx) (q : dot_S2000x100_S100x100_S2000x100_1_0_0_1_n_n.contr.Idx) :
    (dot_S2000x100_S100x100_S2000x100_1_0_0_1_n_n.lhsIdx i q 1).val = (q ⟨0, by decide⟩).val :=
  dot_S2000x100_S100x100_S2000x100_1_0_0_1_n_n.lhsIdx_val_of_single rfl i q
theorem rhs_hid_0 (i : S2000x100.Idx) (q : dot_S2000x100_S100x100_S2000x100_1_0_0_1_n_n.contr.Idx) :
    (dot_S2000x100_S100x100_S2000x100_1_0_0_1_n_n.rhsIdx i q 0).val = (q ⟨0, by decide⟩).val :=
  dot_S2000x100_S100x100_S2000x100_1_0_0_1_n_n.rhsIdx_val_of_single rfl i q
theorem rhs_hid_1 (i : S2000x100.Idx) (q : dot_S2000x100_S100x100_S2000x100_1_0_0_1_n_n.contr.Idx) :
    (dot_S2000x100_S100x100_S2000x100_1_0_0_1_n_n.rhsIdx i q 1).val = (i 1).val := by
  unfold DotDims.rhsIdx
  rw [dif_neg (show ¬(1 : Fin S100x100.rank) ∈ dot_S2000x100_S100x100_S2000x100_1_0_0_1_n_n.rhsBatch by decide), dif_pos (show (1 : Fin S100x100.rank) ∈ dot_S2000x100_S100x100_S2000x100_1_0_0_1_n_n.rhsNonContracting by decide)]
  rfl

theorem lhs_cls_0 (i : S2000x16.Idx) (q : dot_S2000x100_S100x16_S2000x16_1_0_0_1_n_n.contr.Idx) :
    (dot_S2000x100_S100x16_S2000x16_1_0_0_1_n_n.lhsIdx i q 0).val = (i 0).val := by
  unfold DotDims.lhsIdx
  rw [dif_neg (show ¬(0 : Fin S2000x100.rank) ∈ dot_S2000x100_S100x16_S2000x16_1_0_0_1_n_n.lhsBatch by decide), dif_pos (show (0 : Fin S2000x100.rank) ∈ dot_S2000x100_S100x16_S2000x16_1_0_0_1_n_n.lhsNonContracting by decide)]
  rfl
theorem lhs_cls_1 (i : S2000x16.Idx) (q : dot_S2000x100_S100x16_S2000x16_1_0_0_1_n_n.contr.Idx) :
    (dot_S2000x100_S100x16_S2000x16_1_0_0_1_n_n.lhsIdx i q 1).val = (q ⟨0, by decide⟩).val :=
  dot_S2000x100_S100x16_S2000x16_1_0_0_1_n_n.lhsIdx_val_of_single rfl i q
theorem rhs_cls_0 (i : S2000x16.Idx) (q : dot_S2000x100_S100x16_S2000x16_1_0_0_1_n_n.contr.Idx) :
    (dot_S2000x100_S100x16_S2000x16_1_0_0_1_n_n.rhsIdx i q 0).val = (q ⟨0, by decide⟩).val :=
  dot_S2000x100_S100x16_S2000x16_1_0_0_1_n_n.rhsIdx_val_of_single rfl i q
theorem rhs_cls_1 (i : S2000x16.Idx) (q : dot_S2000x100_S100x16_S2000x16_1_0_0_1_n_n.contr.Idx) :
    (dot_S2000x100_S100x16_S2000x16_1_0_0_1_n_n.rhsIdx i q 1).val = (i 1).val := by
  unfold DotDims.rhsIdx
  rw [dif_neg (show ¬(1 : Fin S100x16.rank) ∈ dot_S2000x100_S100x16_S2000x16_1_0_0_1_n_n.rhsBatch by decide), dif_pos (show (1 : Fin S100x16.rank) ∈ dot_S2000x100_S100x16_S2000x16_1_0_0_1_n_n.rhsNonContracting by decide)]
  rfl

/-! ## The two matrix products at an element -/

/-- A [2000,100] × [100,100] product into the zero accumulator, at (p, k): the sum over the shared axis. -/
theorem matmul_hid_apply (a : FVec Ideal S2000x100 .bf16) (w : FVec Ideal S100x100 .bf16) (i : S2000x100.Idx) :
    matmul (F := Ideal) dot_S2000x100_S100x100_S2000x100_1_0_0_1_n_n none a w (constant S2000x100 .f32 0x00000000#32) i
      = ∑ l : Fin 100, a (ix2 (i 0) l) * w (ix2 l (i 1)) := by
  simp only [matmul]
  rw [Ideal.matmul_constant_zero_apply, ← Equiv.sum_comp (contrEquiv1 dot_S2000x100_S100x100_S2000x100_1_0_0_1_n_n 100 rfl rfl).symm]
  refine Finset.sum_congr rfl fun l _ => ?_
  have hl := contrEquiv1_symm_val dot_S2000x100_S100x100_S2000x100_1_0_0_1_n_n 100 rfl rfl l
  have el : dot_S2000x100_S100x100_S2000x100_1_0_0_1_n_n.lhsIdx i ((contrEquiv1 dot_S2000x100_S100x100_S2000x100_1_0_0_1_n_n 100 rfl rfl).symm l) = ix2 (i 0) l := funext fun b => Fin.ext (by
    match b with
    | ⟨0, _⟩ => exact lhs_hid_0 _ _
    | ⟨1, _⟩ => exact (lhs_hid_1 _ _).trans hl)
  have er : dot_S2000x100_S100x100_S2000x100_1_0_0_1_n_n.rhsIdx i ((contrEquiv1 dot_S2000x100_S100x100_S2000x100_1_0_0_1_n_n 100 rfl rfl).symm l) = ix2 l (i 1) := funext fun b => Fin.ext (by
    match b with
    | ⟨0, _⟩ => exact (rhs_hid_0 _ _).trans hl
    | ⟨1, _⟩ => exact rhs_hid_1 _ _)
  rw [el, er]
  rfl

/-- A [2000,100] × [100,16] product into the zero accumulator, at (p, q). -/
theorem matmul_cls_apply (a : FVec Ideal S2000x100 .bf16) (w : FVec Ideal S100x16 .bf16) (i : S2000x16.Idx) :
    matmul (F := Ideal) dot_S2000x100_S100x16_S2000x16_1_0_0_1_n_n none a w (constant S2000x16 .f32 0x00000000#32) i
      = ∑ k : Fin 100, a (ix2 (i 0) k) * w (ix2 k (i 1)) := by
  simp only [matmul]
  rw [Ideal.matmul_constant_zero_apply, ← Equiv.sum_comp (contrEquiv1 dot_S2000x100_S100x16_S2000x16_1_0_0_1_n_n 100 rfl rfl).symm]
  refine Finset.sum_congr rfl fun k _ => ?_
  have hk := contrEquiv1_symm_val dot_S2000x100_S100x16_S2000x16_1_0_0_1_n_n 100 rfl rfl k
  have el : dot_S2000x100_S100x16_S2000x16_1_0_0_1_n_n.lhsIdx i ((contrEquiv1 dot_S2000x100_S100x16_S2000x16_1_0_0_1_n_n 100 rfl rfl).symm k) = ix2 (i 0) k := funext fun b => Fin.ext (by
    match b with
    | ⟨0, _⟩ => exact lhs_cls_0 _ _
    | ⟨1, _⟩ => exact (lhs_cls_1 _ _).trans hk)
  have er : dot_S2000x100_S100x16_S2000x16_1_0_0_1_n_n.rhsIdx i ((contrEquiv1 dot_S2000x100_S100x16_S2000x16_1_0_0_1_n_n 100 rfl rfl).symm k) = ix2 k (i 1) := funext fun b => Fin.ext (by
    match b with
    | ⟨0, _⟩ => exact (rhs_cls_0 _ _).trans hk
    | ⟨1, _⟩ => exact rhs_cls_1 _ _)
  rw [el, er]
  rfl

/-! ## The one-row biases spread down the block -/

theorem bias_hid_apply (b : FVec Ideal S1x100 .f32) (i : S2000x100.Idx) :
    broadcastTo S2000x100 b broadcasts_S1x100_S2000x100 i = b (ix2 (0 : Fin 1) (i 1)) :=
  broadcastTo_apply b broadcasts_S1x100_S2000x100 i (ix2 (0 : Fin 1) (i 1)) (fun a => by
    match a with
    | ⟨0, _⟩ => rfl
    | ⟨1, _⟩ => rfl)

theorem bias_cls_apply (b : FVec Ideal S1x16 .f32) (i : S2000x16.Idx) :
    broadcastTo S2000x16 b broadcasts_S1x16_S2000x16 i = b (ix2 (0 : Fin 1) (i 1)) :=
  broadcastTo_apply b broadcasts_S1x16_S2000x16 i (ix2 (0 : Fin 1) (i 1)) (fun a => by
    match a with
    | ⟨0, _⟩ => rfl
    | ⟨1, _⟩ => rfl)

/-! ## The stored value at an element -/

/-- The body's stored vector at row `p`, class `q` of the block is the row's `logit`. -/
theorem stored_apply (x0 x1 : Vec Ideal S2000x100 .f32) (x2 x3 : Vec Ideal S100x100 .f32) (x4 : Vec Ideal S100x16 .f32)
    (x5 : Vec Ideal S1x100 .f32) (x6 : Vec Ideal S1x16 .f32) (j : S2000x16.Idx) :
    k0_pay1 (F := Ideal) x0 x1 x2 x3 x4 x5 x6 j
      = SageDense.logit (fun l => x0 (ix2 (j 0) l)) (fun l => x1 (ix2 (j 0) l)) (fun l k => x2 (ix2 l k)) (fun l k => x3 (ix2 l k))
          (fun k q => x4 (ix2 k q)) (fun k => x5 (ix2 (0 : Fin 1) k)) (fun q => x6 (ix2 (0 : Fin 1) q)) (j 1) := by
  unfold k0_pay1
  simp only [shapeCast_self]
  rw [addf_apply, matmul_cls_apply, bias_cls_apply]
  unfold SageDense.logit
  congr 1
  refine Finset.sum_congr rfl fun k _ => ?_
  congr 1
  rw [truncf_apply, maximumf_apply, broadcast_apply, addf_apply, addf_apply, matmul_hid_apply, matmul_hid_apply, bias_hid_apply]
  show max _ (Ideal.ofBits .f32 0x00000000#32) = _
  rw [Ideal.ofBits_zero_f32]
  rfl

end Cert.KernelIdeal.Block

end
-- ==== Proof.KernelRows.lean ====
/-
  The kernel's result array after its run, as one function of the arrays its region is entered with.

  Grid point `t` of 50 stages rows [2000 t, 2000 t + 2000) of the aggregated array and of the feature array, the three
  weight matrices and the two one-row biases whole, and writes back rows [2000 t, 2000 t + 2000) × all 16 classes of
  the result. Element (p, q) of what it writes is `SageDense.logit` of row `p` of its two row blocks, which are rows
  `2000 t + p` of the two arrays; so every point's block is the restriction of ONE function `scores` of the arrays,
  the 50 blocks tile the result, and the result array ends holding `scores`.
-/
import proofs.«108285_j89232240541722_1_alg».proof.Proof.Gen.KernelIdeal.Value
import proofs.«108285_j89232240541722_1_alg».proof.Proof.KernelBlock

set_option maxRecDepth 16384

noncomputable section

open scoped BigOperators

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Node `r`'s score for class `q` from the arrays as the region finds them. -/
def rowScores (c : Dev nD) (r : Fin 100000) (q : Fin 16) : EReal :=
  SageDense.logit (fun l => (V m c main_v22 : S100000x100.Idx → EReal) (ix2 r l))
    (fun l => (V m c main_arg0 : S100000x100.Idx → EReal) (ix2 r l))
    (fun l k => (V m c main_v23 : S100x100.Idx → EReal) (ix2 l k))
    (fun l k => (V m c main_v24 : S100x100.Idx → EReal) (ix2 l k))
    (fun k q => (V m c main_v25 : S100x16.Idx → EReal) (ix2 k q))
    (fun k => (V m c main_v26 : S1x100.Idx → EReal) (ix2 (0 : Fin 1) k))
    (fun q => (V m c main_v27 : S1x16.Idx → EReal) (ix2 (0 : Fin 1) q)) q

/-- Every node's class scores as one array. -/
def scores (c : Dev nD) : S100000x16.Idx → EReal := fun i => rowScores m c (i 0) (i 1)

theorem origin : (![0, 0] : Fin 2 → Nat) = fun _ => 0 := funext fun a => by fin_cases a <;> rfl

/-- The block indices over the grid: the two row-streamed inputs and the output sit at block row `t`, column 0; the
    five resident inputs at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## A window's block at a point, read off ANY contents of its array

Stated for an arbitrary array `A`, so that nothing here depends on what the host wrote into the staged arrays. -/

/-- Row `p` of point `t`'s block of the first row-streamed window is row `2000 t + p` of its array. -/
theorem agg_read (A : S100000x100.Idx → EReal) (t : Fin cfg0.N) (x : S2000x100.Idx) (k : S100000x100.Idx)
    (hk0 : (k 0).val = 2000 * t.val + (x 0).val) (hk1 : (k 1).val = (x 1).val) :
    ((cfg0.win 0).blk t).view.read (Elt Ideal) A x = A k := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_0.index t (0 : Fin 2) * 2000 + 1 * (x 0).val = (k 0).val; rw [a0, hk0]; omega
  | ⟨1, _⟩ => show win0_0.index t (1 : Fin 2) * 100 + 1 * (x 1).val = (k 1).val; rw [a1, hk1]; omega

/-- The same for the second row-streamed window. -/
theorem feat_read (A : S100000x100.Idx → EReal) (t : Fin cfg0.N) (x : S2000x100.Idx) (k : S100000x100.Idx)
    (hk0 : (k 0).val = 2000 * t.val + (x 0).val) (hk1 : (k 1).val = (x 1).val) :
    ((cfg0.win 1).blk t).view.read (Elt Ideal) A x = A k := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_1.index t (0 : Fin 2) * 2000 + 1 * (x 0).val = (k 0).val; rw [b0, hk0]; omega
  | ⟨1, _⟩ => show win0_1.index t (1 : Fin 2) * 100 + 1 * (x 1).val = (k 1).val; rw [b1, hk1]; omega

/-- A resident window's block is its whole array, at every point. -/
theorem wl_read (A : S100x100.Idx → EReal) (t : Fin cfg0.N) (x : S100x100.Idx) :
    ((cfg0.win 2).blk t).view.read (Elt Ideal) A x = A x := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_2.index t (0 : Fin 2) * 100 + 1 * (x 0).val = (x 0).val; rw [c0]; omega
  | ⟨1, _⟩ => show win0_2.index t (1 : Fin 2) * 100 + 1 * (x 1).val = (x 1).val; rw [c1]; omega

/-- A resident window's block is its whole array, at every point. -/
theorem wr_read (A : S100x100.Idx → EReal) (t : Fin cfg0.N) (x : S100x100.Idx) :
    ((cfg0.win 3).blk t).view.read (Elt Ideal) A x = A x := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_3.index t (0 : Fin 2) * 100 + 1 * (x 0).val = (x 0).val; rw [d0]; omega
  | ⟨1, _⟩ => show win0_3.index t (1 : Fin 2) * 100 + 1 * (x 1).val = (x 1).val; rw [d1]; omega

/-- A resident window's block is its whole array, at every point. -/
theorem wc_read (A : S100x16.Idx → EReal) (t : Fin cfg0.N) (x : S100x16.Idx) :
    ((cfg0.win 4).blk t).view.read (Elt Ideal) A x = A x := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_4.index t (0 : Fin 2) * 100 + 1 * (x 0).val = (x 0).val; rw [e0]; omega
  | ⟨1, _⟩ => show win0_4.index t (1 : Fin 2) * 16 + 1 * (x 1).val = (x 1).val; rw [e1]; omega

/-- A resident window's block is its whole array, at every point. -/
theorem bl_read (A : S1x100.Idx → EReal) (t : Fin cfg0.N) (x : S1x100.Idx) :
    ((cfg0.win 5).blk t).view.read (Elt Ideal) A x = A x := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_5.index t (0 : Fin 2) * 1 + 1 * (x 0).val = (x 0).val; rw [f0]; omega
  | ⟨1, _⟩ => show win0_5.index t (1 : Fin 2) * 100 + 1 * (x 1).val = (x 1).val; rw [f1]; omega

/-- A resident window's block is its whole array, at every point. -/
theorem bc_read (A : S1x16.Idx → EReal) (t : Fin cfg0.N) (x : S1x16.Idx) :
    ((cfg0.win 6).blk t).view.read (Elt Ideal) A x = A x := by
  obtain ⟨a0, a1, b0, b1, c0, c1, d0, d1, e0, e1, f0, f1, g0, g1, o0, o1⟩ := block_index t
  rw [View.read_apply, cast_eq]
  congr 1
  funext a
  apply Fin.ext
  match a with
  | ⟨0, _⟩ => show win0_6.index t (0 : Fin 2) * 1 + 1 * (x 0).val = (x 0).val; rw [g0]; omega
  | ⟨1, _⟩ => show win0_6.index t (1 : Fin 2) * 16 + 1 * (x 1).val = (x 1).val; rw [g1]; omega

/-! ## What a point writes back -/

/-- `logit` of row `j 0` of point `t`'s blocks, at class `j 1`, is `scores` at node `2000 t + j 0`, class `j 1`. -/
theorem block_scores (c : Dev nD) (t : Fin cfg0.N) (j : S2000x16.Idx) (i : S100000x16.Idx)
    (h0 : (i 0).val = 2000 * t.val + (j 0).val) (h1 : (i 1).val = (j 1).val) :
    SageDense.logit (fun l => (iblk m c 0 t : Vec Ideal S2000x100 .f32) (ix2 (j 0) l))
        (fun l => (iblk m c 1 t : Vec Ideal S2000x100 .f32) (ix2 (j 0) l))
        (fun l k => (iblk m c 2 t : Vec Ideal S100x100 .f32) (ix2 l k)) (fun l k => (iblk m c 3 t : Vec Ideal S100x100 .f32) (ix2 l k))
        (fun k q => (iblk m c 4 t : Vec Ideal S100x16 .f32) (ix2 k q)) (fun k => (iblk m c 5 t : Vec Ideal S1x100 .f32) (ix2 (0 : Fin 1) k))
        (fun q => (iblk m c 6 t : Vec Ideal S1x16 .f32) (ix2 (0 : Fin 1) q)) (j 1)
      = scores m c i := by
  have hq : (j 1 : Fin 16) = i 1 := Fin.ext h1.symm
  unfold scores rowScores iblk
  rw [hq]
  refine congr (congr (congr (congr (congr (congr (congr (congrArg SageDense.logit ?_) ?_) ?_) ?_) ?_) ?_) ?_) rfl
  · exact funext fun l => agg_read _ t (ix2 (j 0) l) (ix2 (i 0) l) h0 rfl
  · exact funext fun l => feat_read _ t (ix2 (j 0) l) (ix2 (i 0) l) h0 rfl
  · exact funext fun l => funext fun k => wl_read _ t (ix2 l k)
  · exact funext fun l => funext fun k => wr_read _ t (ix2 l k)
  · exact funext fun k => funext fun q => wc_read _ t (ix2 k q)
  · exact funext fun k => bl_read _ t (ix2 (0 : Fin 1) k)
  · exact funext fun q => bc_read _ t (ix2 (0 : Fin 1) q)

/-- What point `t` writes back is block `t` of `scores`. -/
theorem flushed_eq (c : Dev nD) (t : Fin cfg0.N) :
    (dats m 0 c).flushed 7 t = ((cfg0.win 7).blk t).view.read (Elt Ideal) (scores m c) := by
  rw [Value.flushed7]
  unfold out0_7
  rw [View.canon_unit_zero origin]
  simp only [View.ld_unit_zero (S := S2000x100) origin, View.ld_unit_zero (S := S100x100) origin,
    View.ld_unit_zero (S := S100x16) origin, View.ld_unit_zero (S := S1x100) origin, View.ld_unit_zero (S := S1x16) origin]
  funext j
  rw [View.read_apply, cast_eq]
  refine (Block.stored_apply (iblk m c 0 t) (iblk m c 1 t) (iblk m c 2 t) (iblk m c 3 t) (iblk m c 4 t) (iblk m c 5 t) (iblk m c 6 t) _).trans ?_
  obtain ⟨a0, a1, b0, b1, c0, c1, d0, d1, e0, e1, f0, f1, g0, g1, o0, o1⟩ := block_index t
  refine block_scores m c t ((win0 7).xinj (grid0.coords t) j) (((View.whole main_v28).slice ((win0 7).rect t)).emb j) ?_ ?_
  · show win0_7.index t (0 : Fin 2) * 2000 + 1 * (j 0).val = 2000 * t.val + (j 0).val
    rw [o0]; omega
  · show win0_7.index t (1 : Fin 2) * 16 + 1 * (j 1).val = (j 1).val
    rw [o1]; omega

/-- An index of the result array is in point `t`'s block iff each coordinate is in the block's range on its axis. -/
theorem mem_block (t : Fin cfg0.N) (i : S100000x16.Idx) :
    i ∈ ((cfg0.win 7).blk t).view.set ↔ ∀ a : Fin 2, win0_7.index t a * S2000x16.size a ≤ (i a).val ∧ (i a).val < win0_7.index t a * S2000x16.size a + S2000x16.size a := by
  show i ∈ ((View.whole main_v28).slice (win0_7.rect t)).set ↔ _
  rw [View.set_slice_whole, Rect.mem_set_unit]
  exact Iff.rfl

/-- The 50 row blocks tile the result: node `r` is in the block of point `r / 2000`. -/
theorem cover (i : S100000x16.Idx) : ∃ t : Fin cfg0.N, (cfg0.win 7).flush t = true ∧ i ∈ ((cfg0.win 7).blk t).view.set := by
  have hi0 : (i 0).val < 100000 := (i 0).isLt
  have hi1 : (i 1).val < 16 := (i 1).isLt
  have hN : grid0.N = 50 := N_0
  have ht : (i 0).val / 2000 < cfg0.N := by show (i 0).val / 2000 < grid0.N; rw [hN]; omega
  refine ⟨⟨(i 0).val / 2000, ht⟩, flush0_7 _, ?_⟩
  rw [mem_block]
  obtain ⟨a0, a1, b0, b1, c0, c1, d0, d1, e0, e1, f0, f1, g0, g1, o0, o1⟩ := block_index ⟨(i 0).val / 2000, ht⟩
  have o0' : win0_7.index ⟨(i 0).val / 2000, ht⟩ (0 : Fin 2) = (i 0).val / 2000 := o0
  intro a
  match a with
  | ⟨0, _⟩ =>
    show win0_7.index ⟨(i 0).val / 2000, ht⟩ (0 : Fin 2) * 2000 ≤ (i 0).val ∧ (i 0).val < win0_7.index ⟨(i 0).val / 2000, ht⟩ (0 : Fin 2) * 2000 + 2000
    rw [o0']; omega
  | ⟨1, _⟩ =>
    show win0_7.index ⟨(i 0).val / 2000, ht⟩ (1 : Fin 2) * 16 ≤ (i 1).val ∧ (i 1).val < win0_7.index ⟨(i 0).val / 2000, ht⟩ (1 : Fin 2) * 16 + 16
    rw [o1]; omega

/-- So the result array ends holding `scores`. -/
theorem final (c : Dev nD) : (dats m 0 c).arrAt 7 cfg0.N = scores m c :=
  (dats m 0 c).arrAt_eq_of_cover 7 (scores m c) (fun t _ => flushed_eq m c t) cover

/-- The kernel's run: it terminates with the result array at `scores` and the arguments unchanged. -/
theorem run : θ_run defs (onTc (τ := τ) (main (F := Ideal))) ⟨m, fun _ => 0, ρ⟩ fun r => ∀ c : Dev nD,
      r.2.mem ((c : Thread nD τ).loc main_v28) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Rows

end
-- ==== Proof.HostArrays.lean ====
/-
  What the kernel's region finds in the arrays the host wrote before it, in the reference's own words.

  Both programs begin with the same host operations: the source and destination rows of the edge list, the gather of
  the source nodes' features, the two scatter-adds (feature sums and in-degrees per destination) and the quotient by
  `max degree 1`; then the transposes of the three weight matrices. The kernel's program stages those arrays into its
  region, the reference goes on with them on the host. Each such array of the kernel's program is, as a function of
  the argument arrays, the very term the reference's program computes for it; the two biases reach the region as
  one-row reshapes, read here at an element.
-/
import proofs.«108285_j89232240541722_1_alg».proof.Proof.Gen.KernelIdeal.Frame
import proofs.«108285_j89232240541722_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxRecDepth 8192 in
set_option maxHeartbeats 2000000 in
/-- The aggregated-neighbour array (feature sums over in-edges divided by `max degree 1`) the region stages is the
    reference's stage of the same name, of the same two arguments. -/
theorem mean_eq (c : Dev nD) :
    (V m c main_v22 : S100000x100.Idx → EReal)
      = Cert.ReferenceIdeal.Read.val_main_v22 (F := Ideal) (m ((c : Thread nD τ).loc main_arg0)) (m ((c : Thread nD τ).loc main_arg1)) := by
  dsimp only [V, hostOps0]; after_results_simp <;> rfl

set_option maxRecDepth 8192 in
set_option maxHeartbeats 2000000 in
/-- The transposed neighbour weights. -/
theorem wl_eq (c : Dev nD) :
    (V m c main_v23 : S100x100.Idx → EReal) = Cert.ReferenceIdeal.Read.val_main_v23 (F := Ideal) (m ((c : Thread nD τ).loc main_arg2)) := by
  dsimp only [V, hostOps0]; after_results_simp <;> rfl

set_option maxRecDepth 8192 in
set_option maxHeartbeats 2000000 in
/-- The transposed self weights. -/
theorem wr_eq (c : Dev nD) :
    (V m c main_v24 : S100x100.Idx → EReal) = Cert.ReferenceIdeal.Read.val_main_v28 (F := Ideal) (m ((c : Thread nD τ).loc main_arg4)) := by
  dsimp only [V, hostOps0]; after_results_simp <;> rfl

set_option maxRecDepth 8192 in
set_option maxHeartbeats 2000000 in
/-- The transposed classifier weights. -/
theorem wc_eq (c : Dev nD) :
    (V m c main_v25 : S100x16.Idx → EReal) = Cert.ReferenceIdeal.Read.val_main_v32 (F := Ideal) (m ((c : Thread nD τ).loc main_arg5)) := by
  dsimp only [V, hostOps0]; after_results_simp <;> rfl

set_option maxRecDepth 8192 in
set_option maxHeartbeats 2000000 in
/-- The hidden bias as a one-row array, at column `k`: the bias at `k`. -/
theorem bl_apply (c : Dev nD) (k : Fin 100) :
    (V m c main_v26 : S1x100.Idx → EReal) (ix2 (0 : Fin 1) k) = (m ((c : Thread nD τ).loc main_arg3) : S100.Idx → EReal) (ix1 k) := by
  have e : (V m c main_v26 : S1x100.Idx → EReal) = shapeCast S1x100 (m ((c : Thread nD τ).loc main_arg3) : S100.Idx → EReal) shapeCasts_S100_S1x100 := by
    dsimp only [V, hostOps0]; after_results_simp <;> rfl
  rw [e]
  exact shapeCast_apply _ shapeCasts_S100_S1x100 (ix2 (0 : Fin 1) k) (ix1 k)
    (by rw [Shape.rowMajor_val_two, Shape.rowMajor_val_one]; show k.val = 0 * 100 + k.val; omega)

set_option maxRecDepth 8192 in
set_option maxHeartbeats 2000000 in
/-- The classifier bias as a one-row array, at column `q`. -/
theorem bc_apply (c : Dev nD) (q : Fin 16) :
    (V m c main_v27 : S1x16.Idx → EReal) (ix2 (0 : Fin 1) q) = (m ((c : Thread nD τ).loc main_arg6) : S16.Idx → EReal) (ix1 q) := by
  have e : (V m c main_v27 : S1x16.Idx → EReal) = shapeCast S1x16 (m ((c : Thread nD τ).loc main_arg6) : S16.Idx → EReal) shapeCasts_S16_S1x16 := by
    dsimp only [V, hostOps0]; after_results_simp <;> rfl
  rw [e]
  exact shapeCast_apply _ shapeCasts_S16_S1x16 (ix2 (0 : Fin 1) q) (ix1 q)
    (by rw [Shape.rowMajor_val_two, Shape.rowMajor_val_one]; show q.val = 0 * 16 + q.val; omega)

end Cert.KernelIdeal.HostArrays

end
-- ==== Proof.ReferenceRows.lean ====
/-
  The reference's result at one element, as `SageDense.logit` of the node's two feature rows.

  On the host the reference computes `relu (mean · Wlᵀ + bl + x · Wrᵀ) · Wcᵀ + bc` over all 100000 nodes at once. Read
  at node `r`, class `q`, one operation at a time: the last product sums over the 100 hidden units the rectified
  unit `k` of node `r` against the transposed classifier at (k, q); the hidden unit is the neighbour product at
  (r, k), then the bias at `k` (a one-row broadcast), then the self product at (r, k); the rectifier's second operand
  is the zero constant. The bias joins before the self term here and after it in `SageDense.hidden`:
  `hidden_bias_first`.
-/
import proofs.«108285_j89232240541722_1_alg».proof.Proof.Gen.ReferenceIdeal.Read
import proofs.«108285_j89232240541722_1_alg».proof.Proof.DenseRow

noncomputable section

open scoped BigOperators

namespace Cert.ReferenceIdeal.Rows

open Cert.ReferenceIdeal Cert.ReferenceIdeal.Read Idealize.ShloMosaic Idealize.ShloMosaic.ValueIdx

/-! ## The composed operand indices, by coordinates -/

theorem lidx_cls (r : Fin 100000) (q : Fin 16) (k : Fin 100) : lidx_main_v33 (ix2 r q) k = ix2 r k :=
  funext fun a => Fin.ext (by match a with | ⟨0, _⟩ => rfl | ⟨1, _⟩ => rfl)
theorem ridx_cls (r : Fin 100000) (q : Fin 16) (k : Fin 100) : ridx_main_v33 (ix2 r q) k = ix2 k q :=
  funext fun a => Fin.ext (by match a with | ⟨0, _⟩ => rfl | ⟨1, _⟩ => rfl)
theorem lidx_nbr (r : Fin 100000) (k l : Fin 100) : lidx_main_v24 (ix2 r k) l = ix2 r l :=
  funext fun a => Fin.ext (by match a with | ⟨0, _⟩ => rfl | ⟨1, _⟩ => rfl)
theorem ridx_nbr (r : Fin 100000) (k l : Fin 100) : ridx_main_v24 (ix2 r k) l = ix2 l k :=
  funext fun a => Fin.ext (by match a with | ⟨0, _⟩ => rfl | ⟨1, _⟩ => rfl)
theorem lidx_self (r : Fin 100000) (k l : Fin 100) : lidx_main_v29 (ix2 r k) l = ix2 r l :=
  funext fun a => Fin.ext (by match a with | ⟨0, _⟩ => rfl | ⟨1, _⟩ => rfl)
theorem ridx_self (r : Fin 100000) (k l : Fin 100) : ridx_main_v29 (ix2 r k) l = ix2 l k :=
  funext fun a => Fin.ext (by match a with | ⟨0, _⟩ => rfl | ⟨1, _⟩ => rfl)
theorem idx_bl (r : Fin 100000) (k : Fin 100) : idx_main_v25 (idx_main_v26 (ix2 r k)) = ix1 k :=
  funext fun a => Fin.ext (by match a with | ⟨0, _⟩ => rfl)
theorem idx_bc (r : Fin 100000) (q : Fin 16) : idx_main_v34 (idx_main_v35 (ix2 r q)) = ix1 q :=
  funext fun a => Fin.ext (by match a with | ⟨0, _⟩ => rfl)

/-! ## The hidden unit and the result at an element -/

/-- The rectified hidden unit `k` of node `r`. -/
theorem relu_apply (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (r : Fin 100000) (k : Fin 100) :
    val_main_v31 (F := Ideal) x0 x1 x2 x3 x4 (ix2 r k)
      = max (SageDense.hidden (fun l => val_main_v22 (F := Ideal) x0 x1 (ix2 r l)) (fun l => x0 (ix2 r l))
          (fun l k => val_main_v23 (F := Ideal) x2 (ix2 l k)) (fun l k => val_main_v28 (F := Ideal) x4 (ix2 l k))
          (fun k => x3 (ix1 k)) k) 0 := by
  rw [val_main_v31_apply, val_main_call0_v0_apply, val_main_call0_cst_apply, val_main_v30_apply, val_main_v27_apply,
    val_main_v24_apply, val_main_v26_apply, val_main_v25_apply, val_main_v29_apply, idx_bl]
  simp only [lidx_nbr, ridx_nbr, lidx_self, ridx_self]
  show max (_ + _ + _) (Ideal.ofBits .f32 0x00000000#32) = _
  rw [Ideal.ofBits_zero_f32]
  exact congrArg (fun z => max z (0 : EReal)) (SageDense.hidden_bias_first (fun l => val_main_v22 (F := Ideal) x0 x1 (ix2 r l))
    (fun l => x0 (ix2 r l)) (fun l k => val_main_v23 (F := Ideal) x2 (ix2 l k)) (fun l k => val_main_v28 (F := Ideal) x4 (ix2 l k))
    (fun k => x3 (ix1 k)) k)

/-- Node `r`'s score for class `q`, as a function of the seven argument arrays: `logit` of the node's aggregated row
    (the host's quotient of scattered feature sums by `max degree 1`) and its own feature row. -/
def nodeRow (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (x5 : (⟨S16x100, .f32⟩ : BufTy).Contents (Elt Ideal))
    (x6 : (⟨S16, .f32⟩ : BufTy).Contents (Elt Ideal)) (r : Fin 100000) (q : Fin 16) : EReal :=
  SageDense.logit (fun l => val_main_v22 (F := Ideal) x0 x1 (ix2 r l)) (fun l => x0 (ix2 r l))
    (fun l k => val_main_v23 (F := Ideal) x2 (ix2 l k)) (fun l k => val_main_v28 (F := Ideal) x4 (ix2 l k))
    (fun k q => val_main_v32 (F := Ideal) x5 (ix2 k q)) (fun k => x3 (ix1 k)) (fun q => x6 (ix1 q)) q

/-- The reference's result at node `r`, class `q`. -/
theorem result_apply (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (x5 : (⟨S16x100, .f32⟩ : BufTy).Contents (Elt Ideal))
    (x6 : (⟨S16, .f32⟩ : BufTy).Contents (Elt Ideal)) (r : Fin 100000) (q : Fin 16) :
    val_main_v36 (F := Ideal) x0 x1 x2 x3 x4 x5 x6 (ix2 r q) = nodeRow x0 x1 x2 x3 x4 x5 x6 r q := by
  unfold nodeRow
  rw [val_main_v36_apply, val_main_v33_apply, val_main_v35_apply, val_main_v34_apply, idx_bc]
  simp only [lidx_cls, ridx_cls, relu_apply]
  rfl

/-! ## The whole result array -/

/-- Every node's class scores as one array. -/
def nodeScores (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (x5 : (⟨S16x100, .f32⟩ : BufTy).Contents (Elt Ideal))
    (x6 : (⟨S16, .f32⟩ : BufTy).Contents (Elt Ideal)) : S100000x16.Idx → EReal := fun i =>
  nodeRow x0 x1 x2 x3 x4 x5 x6 (i 0) (i 1)

/-- The reference's last stage is that array. -/
theorem result_eq (x0 : (⟨S100000x100, .f32⟩ : BufTy).Contents (Elt Ideal)) (x1 : (⟨S2x800000, .i32⟩ : BufTy).Contents (Elt Ideal))
    (x2 : (⟨S100x100, .f32⟩ : BufTy).Contents (Elt Ideal)) (x3 : (⟨S100, .f32⟩ : BufTy).Contents (Elt Ideal))
    (x4 : (⟨S100x100, .f32⟩ : BufTy).Contents (Elt Ideal)) (x5 : (⟨S16x100, .f32⟩ : BufTy).Contents (Elt Ideal))
    (x6 : (⟨S16, .f32⟩ : BufTy).Contents (Elt Ideal)) :
    val_main_v36 (F := Ideal) x0 x1 x2 x3 x4 x5 x6 = nodeScores x0 x1 x2 x3 x4 x5 x6 := by
  funext i
  obtain ⟨r, q, rfl⟩ : ∃ (r : Fin 100000) (q : Fin 16), i = ix2 r q := ⟨i 0, i 1, eq_ix2 i⟩
  exact result_apply x0 x1 x2 x3 x4 x5 x6 r q

end Cert.ReferenceIdeal.Rows

end
-- ==== Proof.KernelScores.lean ====
/-
  The kernel's result in the reference's terms.

  `Rows.scores` is stated over the arrays the region is entered with; each of those is the reference's own stage of
  the argument arrays (`HostArrays`), the feature array is the argument itself, and the one-row biases read at a
  column are the bias arguments there. So the kernel's result array is `nodeScores` of the seven arguments: the same
  function the reference's last stage is (`ReferenceIdeal.Rows.result_eq`).
-/
import proofs.«108285_j89232240541722_1_alg».proof.Proof.KernelRows
import proofs.«108285_j89232240541722_1_alg».proof.Proof.HostArrays
import proofs.«108285_j89232240541722_1_alg».proof.Proof.ReferenceRows

noncomputable section

namespace Cert.KernelIdeal.Rows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- Node by node: the staged arrays are the reference's stages of the arguments. -/
theorem rowScores_eq (c : Dev nD) (r : Fin 100000) (q : Fin 16) :
    rowScores m c r q = Cert.ReferenceIdeal.Rows.nodeRow (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) r q := by
  unfold rowScores Cert.ReferenceIdeal.Rows.nodeRow
  refine congr (congr (congr (congr (congr (congr (congr (congrArg SageDense.logit ?_) ?_) ?_) ?_) ?_) ?_) ?_) rfl
  · exact funext fun l => congrFun (HostArrays.mean_eq m c) (ix2 r l)
  · exact funext fun l => congrFun (V_main_arg0 m c) (ix2 r l)
  · exact funext fun l => funext fun k => congrFun (HostArrays.wl_eq m c) (ix2 l k)
  · exact funext fun l => funext fun k => congrFun (HostArrays.wr_eq m c) (ix2 l k)
  · exact funext fun k => funext fun q => congrFun (HostArrays.wc_eq m c) (ix2 k q)
  · exact funext fun k => HostArrays.bl_apply m c k
  · exact funext fun q => HostArrays.bc_apply m c q

/-- The kernel's scores are the reference's function of the argument arrays. -/
theorem scores_eq (c : Dev nD) :
    scores m c = Cert.ReferenceIdeal.Rows.nodeScores (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  funext fun i => rowScores_eq m c (i 0) (i 1)

/-- The kernel's run with its result named by the argument arrays. -/
theorem run_args : θ_run defs (onTc (τ := τ) (main (F := Ideal))) ⟨m, fun _ => 0, ρ⟩ fun r => ∀ c : Dev nD,
      r.2.mem ((c : Thread nD τ).loc main_v28) = Cert.ReferenceIdeal.Rows.nodeScores (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (scores_eq m c), (h c).2⟩) (run m ρ)

end Cert.KernelIdeal.Rows

end
-- ==== Proof.lean ====
/-
  The SAGE layer's dense tail, `relu (mean · Wlᵀ + x · Wrᵀ + bl) · Wcᵀ + bc`, tiled over 50 blocks of 2000 nodes in one
  kernel, against the same expression on the host.

  Both programs first build `mean` on the host by the same operations (gather the source nodes' features, scatter-add
  them and the in-degrees per destination, divide by `max degree 1`) and transpose the three weight matrices; the
  kernel then computes the dense tail block by block with its operands narrowed to bf16 (the identity on the extended
  reals) and each product accumulated from zero, the reference computes it over all nodes at once. Element (r, q) of
  either result is `SageDense.logit` of node `r`'s aggregated row and own row (Proof/DenseRow.lean): for the kernel by
  reading its stored block at an element (Proof/KernelBlock.lean), each block being rows [2000 t, 2000 t + 2000) of one
  function of the arrays, the blocks tiling the result (Proof/KernelRows.lean), and the staged arrays being the
  reference's stages of the arguments (Proof/HostArrays.lean, Proof/KernelScores.lean); for the reference by reading
  its run one operation at a time (Proof/ReferenceRows.lean). The two differ only in where the hidden bias joins the
  sum of the two products, and addition on the extended reals is commutative and associative, so no finiteness of the
  inputs is used. The ideal pass rewrote nothing, so the idealization claim is trivial; the frames are the generated
  ones, the reference's its run with the result dropped.
-/
import proofs.«108285_j89232240541722_1_alg».proof.Defs
import proofs.«108285_j89232240541722_1_alg».proof.Proof.Gen.Kernel
import proofs.«108285_j89232240541722_1_alg».proof.Proof.Gen.Kernel.Skeleton
import proofs.«108285_j89232240541722_1_alg».proof.Proof.Gen.Kernel.Launch
import proofs.«108285_j89232240541722_1_alg».proof.Proof.Gen.Kernel.Points
import proofs.«108285_j89232240541722_1_alg».proof.Proof.Gen.Kernel.Frame
import proofs.«108285_j89232240541722_1_alg».proof.Proof.Gen.KernelIdeal
import proofs.«108285_j89232240541722_1_alg».proof.Proof.Gen.KernelIdeal.Skeleton
import proofs.«108285_j89232240541722_1_alg».proof.Proof.Gen.KernelIdeal.Launch
import proofs.«108285_j89232240541722_1_alg».proof.Proof.Gen.KernelIdeal.Points
import proofs.«108285_j89232240541722_1_alg».proof.Proof.Gen.KernelIdeal.Frame
import proofs.«108285_j89232240541722_1_alg».proof.Proof.Gen.ReferenceIdeal
import proofs.«108285_j89232240541722_1_alg».proof.Proof.Gen.Pre_finite_inputs
import proofs.«108285_j89232240541722_1_alg».proof.Proof.Gen.KernelIdeal.Value
import proofs.«108285_j89232240541722_1_alg».proof.Proof.Gen.ReferenceIdeal.Run
import proofs.«108285_j89232240541722_1_alg».proof.Proof.Gen.ReferenceIdeal.Read
import proofs.«108285_j89232240541722_1_alg».proof.Proof.KernelScores
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `nodeScores` of the (agreeing) argument arrays. -/
theorem algebraic : Cert.algebraic_KernelIdeal_ReferenceIdeal := by
  intro m ρ m' ρ' _ hagree
  refine ⟨_, Cert.KernelIdeal.Rows.run_args m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.Read.val_main_v36_eq _ _ _ _ _ _ _).trans (Cert.ReferenceIdeal.Rows.result_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
